-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512 .f32) (main_arg12 : FVec F S512x1 .f32) (main_arg13 : FVec F S1 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x1 .f32 := Host.absf main_arg12
  let main_cst_22 : FVec F S_ .f32 := constant S_ .f32 0x7F800000#32
  let main_v60 : FVec F S512x1 .f32 := broadcastInDim S512x1 ![] bcast_S_S512x1 main_cst_22
  let main_v61 : IVec S512x1 1 := cmpf .olt main_v59 main_v60
  let main_c_23 : IVec S_ 1 := constantI S_ 1 1#1
  let main_v62 : IVec S_ 1 := (fun x v => Host.reduce IntOp.andi x v reducesTo_S512x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S1 .f32) (main_arg8 : FVec F S512x512 .f32) (main_arg9 : FVec F S512 .f32) (main_arg10 : FVec F S512x512 .f32) (main_arg11 : FVec F S512 .f32) (main_arg12 : FVec F S512x1 .f32) (main_arg13 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_v48 main_v49 main_v50

def fn_part1 {F : FTy → Type} [FloatOps F] (main_arg4 : FVec F S512x512 .f32) (main_arg5 : FVec F S512 .f32) (main_arg6 : FVec F S512x1 .f32) (main_arg7 : FVec F S1 .f32) (main_arg8 : FVec F S512x512 .f32) (main_arg9 : FVec F S512 .f32) (main_arg10 : FVec F S512x512 .f32) (main_arg11 : FVec F S512 .f32) (main_arg12 : FVec F S512x1 .f32) (main_arg13 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S32768x512 .f32) (main_arg1 : FVec F S32768x512 .f32) (main_arg2 : FVec F S1024x512 .f32) (main_arg3 : FVec F S512 .f32) (main_arg4 : FVec F S512x512 .f32) (main_arg5 : FVec F S512 .f32) (main_arg6 : FVec F S512x1 .f32) (main_arg7 : FVec F S1 .f32) (main_arg8 : FVec F S512x512 .f32) (main_arg9 : FVec F S512 .f32) (main_arg10 : FVec F S512x512 .f32) (main_arg11 : FVec F S512 .f32) (main_arg12 : FVec F S512x1 .f32) (main_arg13 : FVec F S1 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_v13 main_v16
-- ==== Kernel.lean ====
abbrev S32768x512 : Shape := ⟨2, ![32768, 512]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S1x512 : Shape := ⟨2, ![1, 512]⟩
abbrev S1x1 : Shape := ⟨2, ![1, 1]⟩
abbrev S32768x1 : Shape := ⟨2, ![32768, 1]⟩
abbrev S1024x1 : Shape := ⟨2, ![1024, 1]⟩
abbrev S1024x1024 : Shape := ⟨2, ![1024, 1024]⟩

abbrev nBuf : Space → Nat
  | .hbm => 22
  | .vmem => 20
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S1024x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x1, .f32⟩
  | .hbm, ⟨13, _⟩ => ⟨S1, .f32⟩
  | .hbm, ⟨14, _⟩ => ⟨S1x512, .f32⟩
  | .hbm, ⟨15, _⟩ => ⟨S1x512, .f32⟩
  | .hbm, ⟨16, _⟩ => ⟨S1x1, .f32⟩
  | .hbm, ⟨17, _⟩ => ⟨S1x512, .f32⟩
  | .hbm, ⟨18, _⟩ => ⟨S1x512, .f32⟩
  | .hbm, ⟨19, _⟩ => ⟨S1x1, .f32⟩
  | .hbm, ⟨20, _⟩ => ⟨S32768x1, .f32⟩
  | .hbm, ⟨21, _⟩ => ⟨S32768x1, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S512x1, .f32⟩
  | .local _ .vmem, ⟨9, _⟩ => ⟨S1x1, .f32⟩
  | .local _ .vmem, ⟨10, _⟩ => ⟨S512x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S512x1, .f32⟩
  | .local _ .vmem, ⟨15, _⟩ => ⟨S1x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S512_S1x512 : S512.ShapeCasts S1x512
  shapeCasts_S1_S1x1 : S1.ShapeCasts S1x1
  inb_S1024x512_S1024x512_0_0 : ∀ a, (![0, 0] : Fin 2 → Nat) a + S1024x512.size a ≤ S1024x512.size a
  h_S1024x512 : 0 < S1024x512.numel
  concatenates_S1024x512_S1024x512_S1024x1024_d1 : Shape.Concatenates [S1024x512, S1024x512] S1024x1024 1
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x512_S1024x512 : S1x512.Broadcasts S1024x512
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x1024_S1024x512_S1024x512_1_0_0_1_n_n_wf : DotDims.WF S1024x1024 S1024x512 S1024x512 [1] [0] [0] [1] [] []
  dot_S1024x512_S512x512_S1024x512_1_0_0_1_n_n_wf : DotDims.WF S1024x512 S512x512 S1024x512 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S512x1.size a
  hwx0_6 : ∀ i : grid0.Coords, EltTy.bits .f32 = 32 ∨ (Rect.block (s := S512x1) S512x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .f32 = 32 ∨ (Rect.block (s := S512x512) S512x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x1.size a ≤ S512x1.size a
  hwx0_12 : ∀ i : grid0.Coords, EltTy.bits .f32 = 32 ∨ (Rect.block (s := S512x1) S512x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x1.size a ≤ S32768x1.size a
  hwx0_14 : ∀ i : grid0.Coords, EltTy.bits .f32 = 32 ∨ (Rect.block (s := S32768x1) S1024x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x1.size a ≤ S32768x1.size a
  hwx0_15 : ∀ i : grid0.Coords, EltTy.bits .f32 = 32 ∨ (Rect.block (s := S32768x1) S1024x1.size (cc0_transform_15 i) (hinb0_15 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S512x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6_0) S1024x1.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v6_1) S1024x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S32768x512 : Shape := ⟨2, ![32768, 512]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S32768x1024 : Shape := ⟨2, ![32768, 1024]⟩
abbrev S1x512 : Shape := ⟨2, ![1, 512]⟩
abbrev S_ : Shape := ⟨0, ![]⟩
abbrev S32768x1 : Shape := ⟨2, ![32768, 1]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S1024x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x1, .f32⟩
  | .hbm, ⟨13, _⟩ => ⟨S1, .f32⟩
  | .hbm, ⟨14, _⟩ => ⟨S32768x1024, .f32⟩
  | .hbm, ⟨15, _⟩ => ⟨S32768x512, .f32⟩
  | .hbm, ⟨16, _⟩ => ⟨S1x512, .f32⟩
  | .hbm, ⟨17, _⟩ => ⟨S32768x512, .f32⟩
  | .hbm, ⟨18, _⟩ => ⟨S32768x512, .f32⟩
  | .hbm, ⟨19, _⟩ => ⟨S_, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S1x512, .f32⟩
  | .hbm, ⟨24, _⟩ => ⟨S32768x512, .f32⟩
  | .hbm, ⟨25, _⟩ => ⟨S32768x512, .f32⟩
  | .hbm, ⟨26, _⟩ => ⟨S_, .f32⟩
  | .hbm, ⟨27, _⟩ => ⟨S32768x512, .f32⟩
  | .hbm, ⟨28, _⟩ => ⟨S32768x512, .f32⟩
  | .hbm, ⟨29, _⟩ => ⟨S32768x1, .f32⟩
  | .hbm, ⟨30, _⟩ => ⟨S1x1, .f32⟩
  | .hbm, ⟨31, _⟩ => ⟨S32768x1, .f32⟩
  | .hbm, ⟨32, _⟩ => ⟨S32768x1, .f32⟩
  | .hbm, ⟨33, _⟩ => ⟨S32768x512, .f32⟩
  | .hbm, ⟨34, _⟩ => ⟨S1x512, .f32⟩
  | .hbm, ⟨35, _⟩ => ⟨S32768x512, .f32⟩
  | .hbm, ⟨36, _⟩ => ⟨S32768x512, .f32⟩
  | .hbm, ⟨37, _⟩ => ⟨S_, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S1x512, .f32⟩
  | .hbm, ⟨42, _⟩ => ⟨S32768x512, .f32⟩
  | .hbm, ⟨43, _⟩ => ⟨S32768x512, .f32⟩
  | .hbm, ⟨44, _⟩ => ⟨S_, .f32⟩
  | .hbm, ⟨45, _⟩ => ⟨S32768x512, .f32⟩
  | .hbm, ⟨46, _⟩ => ⟨S32768x512, .f32⟩
  | .hbm, ⟨47, _⟩ => ⟨S32768x1, .f32⟩
  | .hbm, ⟨48, _⟩ => ⟨S1x1, .f32⟩
  | .hbm, ⟨49, _⟩ => ⟨S32768x1, .f32⟩
  | .hbm, ⟨50, _⟩ => ⟨S32768x1, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_cst : Ref sig .tc := ⟨.hbm, 26, rfl⟩
abbrev main_call1_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call2_cst : Ref sig .tc := ⟨.hbm, 37, rfl⟩
abbrev main_call2_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call3_cst : Ref sig .tc := ⟨.hbm, 44, rfl⟩
abbrev main_call3_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]

class Facts₀ : Prop where
  concatenates_S32768x512_S32768x512_S32768x1024_d1 : Shape.Concatenates [S32768x512, S32768x512] S32768x1024 1
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  dot_S32768x1024_S1024x512_S32768x512_1_0_0_1_n_n_wf : DotDims.WF S32768x1024 S1024x512 S32768x512 [1] [0] [0] [1] [] []
  dot_S32768x512_S512x512_S32768x512_1_0_0_1_n_n_wf : DotDims.WF S32768x512 S512x512 S32768x512 [1] [0] [0] [1] [] []
  dot_S32768x512_S512x1_S32768x1_1_0_0_1_n_n_wf : DotDims.WF S32768x512 S512x1 S32768x1 [1] [0] [0] [1] [] []

variable [Facts₀]

def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x1_S32768x1_1_0_0_1_n_n : DotDims S32768x512 S512x1 S32768x1 where
  lhsContracting := [1]
  rhsContracting := [0]
  lhsNonContracting := [0]
  rhsNonContracting := [1]
  lhsBatch := []
  rhsBatch := []
  wf := dot_S32768x512_S512x1_S32768x1_1_0_0_1_n_n_wf

class Facts : Prop extends Facts₀ where

variable [Facts]
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Product.lean ====
/-
  A matrix product read by coordinates.

  For dimension numbers that contract the left operand's columns with the right operand's rows, with no batch axis, the
  sum over the contraction's positions at the result's entry `(p, c)` is `∑ k, lhs (p, k) · rhs (k, c)` over the `K`
  numbers below the contracted extent: each position is one `k`, the left index there is `(p, k)` and the right index
  `(k, c)`.
-/
import proofs.«127567_j74783970557989_1_alg».proof.Proof.LibContraction

noncomputable section

open scoped BigOperators

namespace Cert.Product

open Idealize.ShloMosaic Idealize.ShloMosaic.ValueIdx Cert.Lib.Contraction

variable {R K N : Nat} (d : DotDims ⟨2, ![R, K]⟩ ⟨2, ![K, N]⟩ ⟨2, ![R, N]⟩)

/-- The left operand's index at position `k` of entry `(p, c)` is `(p, k)`. -/
theorem lhs_at (hc : d.lhsContracting = [1]) (hn : d.lhsNonContracting = [0]) (hb : d.lhsBatch = [])
    (p : Fin R) (c : Fin N) (k : Fin K) :
    d.lhsIdx (ix2 p c) ((contrFin d hc K rfl).symm k) = ix2 p k := by
  funext a
  apply Fin.ext
  match a with
  | ⟨0, _⟩ => exact lhs_free d hb hn (ix2 p c) _ Nat.zero_lt_two
  | ⟨1, _⟩ => exact lhs_contracted d hc K rfl (ix2 p c) k

/-- The right operand's index at position `k` of entry `(p, c)` is `(k, c)`. -/
theorem rhs_at (hc : d.lhsContracting = [1]) (hc' : d.rhsContracting = [0]) (hn : d.lhsNonContracting = [0])
    (hn' : d.rhsNonContracting = [1]) (hb : d.lhsBatch = []) (hb' : d.rhsBatch = [])
    (p : Fin R) (c : Fin N) (k : Fin K) :
    d.rhsIdx (ix2 p c) ((contrFin d hc K rfl).symm k) = ix2 k c := by
  funext a
  apply Fin.ext
  match a with
  | ⟨0, _⟩ => exact rhs_contracted d hc hc' K rfl (ix2 p c) k
  | ⟨1, _⟩ => exact rhs_free d hb hb' hn hn' (ix2 p c) _ Nat.one_lt_two

/-- The contraction at entry `(p, c)` is the sum over `k` of `lhs (p, k) · rhs (k, c)`. -/
theorem sum_at (hc : d.lhsContracting = [1]) (hc' : d.rhsContracting = [0]) (hn : d.lhsNonContracting = [0])
    (hn' : d.rhsNonContracting = [1]) (hb : d.lhsBatch = []) (hb' : d.rhsBatch = [])
    (lhs : (⟨2, ![R, K]⟩ : Shape).Idx → EReal) (rhs : (⟨2, ![K, N]⟩ : Shape).Idx → EReal) (p : Fin R) (c : Fin N) :
    ∑ k : d.contr.Idx, lhs (d.lhsIdx (ix2 p c) k) * rhs (d.rhsIdx (ix2 p c) k)
      = ∑ k : Fin K, lhs (ix2 p k) * rhs (ix2 k c) := by
  rw [sum_contr d hc K rfl]
  refine Finset.sum_congr rfl fun k _ => ?_
  rw [lhs_at d hc hn hb p c k, rhs_at d hc hc' hn hn' hb hb' p c k]

end Cert.Product

end
-- ==== Proof.Perceptron.lean ====
/-
  The function both programs compute, stated once, over the extended reals.

  A row `x` of `K` numbers goes through two rectified dense layers of 512 units and one linear output unit:
  unit `c` of the first layer is `max (∑ k, x k · W₁ k c + b₁ c) 0`, unit `c` of the second is the same over the first
  layer's 512 outputs, and the result is `∑ k, h₂ k · W₃ k + b₃`. The action-value head reads the row made of a state row
  followed by an action row (1024 numbers), the state-value head the state row alone (512 numbers); row `r` of each result
  depends on row `r` of the inputs only, which is why any tiling of the rows computes the same array.
-/
import Idealize.ShloMosaic.PureOps.Ideal
import Idealize.ShloMosaic.Lib.ValueIdx

noncomputable section

open scoped BigOperators

namespace Cert.Perceptron

open Idealize.ShloMosaic Idealize.ShloMosaic.ValueIdx

/-- One rectified dense layer at output unit `c`: the inner product of the input row with the unit's weight column,
    plus its bias, cut off below at zero. -/
def rectified {K N : Nat} (x : Fin K → EReal) (W : Fin K → Fin N → EReal) (b : Fin N → EReal) (c : Fin N) : EReal :=
  max ((∑ k : Fin K, x k * W k c) + b c) 0

/-- The three-layer perceptron on one input row. -/
def head {K : Nat} (x : Fin K → EReal) (W₁ : Fin K → Fin 512 → EReal) (b₁ : Fin 512 → EReal)
    (W₂ : Fin 512 → Fin 512 → EReal) (b₂ : Fin 512 → EReal) (W₃ : Fin 512 → EReal) (b₃ : EReal) : EReal :=
  (∑ k : Fin 512, rectified (rectified x W₁ b₁) W₂ b₂ k * W₃ k) + b₃

/-- A row of 512 numbers followed by another: position `k` reads the first below 512 and the second, 512 less, from there on. -/
def joined (s a : Fin 512 → EReal) : Fin 1024 → EReal :=
  fun k => if h : k.val < 512 then s ⟨k.val, h⟩ else a ⟨k.val - 512, by omega⟩

/-- The action values: row `r` is the perceptron of state row `r` joined with action row `r`. -/
def actionValue (states actions : (⟨2, ![32768, 512]⟩ : Shape).Idx → EReal)
    (W₁ : (⟨2, ![1024, 512]⟩ : Shape).Idx → EReal) (b₁ : (⟨1, ![512]⟩ : Shape).Idx → EReal)
    (W₂ : (⟨2, ![512, 512]⟩ : Shape).Idx → EReal) (b₂ : (⟨1, ![512]⟩ : Shape).Idx → EReal)
    (W₃ : (⟨2, ![512, 1]⟩ : Shape).Idx → EReal) (b₃ : (⟨1, ![1]⟩ : Shape).Idx → EReal) :
    (⟨2, ![32768, 1]⟩ : Shape).Idx → EReal :=
  fun i => head (joined (fun k => states (ix2 (i 0) k)) (fun k => actions (ix2 (i 0) k)))
    (fun k c => W₁ (ix2 k c)) (fun c => b₁ (ix1 c)) (fun k c => W₂ (ix2 k c)) (fun c => b₂ (ix1 c))
    (fun k => W₃ (ix2 k (0 : Fin 1))) (b₃ (ix1 (0 : Fin 1)))

/-- The state values: row `r` is the perceptron of state row `r`. -/
def stateValue (states : (⟨2, ![32768, 512]⟩ : Shape).Idx → EReal)
    (W₁ : (⟨2, ![512, 512]⟩ : Shape).Idx → EReal) (b₁ : (⟨1, ![512]⟩ : Shape).Idx → EReal)
    (W₂ : (⟨2, ![512, 512]⟩ : Shape).Idx → EReal) (b₂ : (⟨1, ![512]⟩ : Shape).Idx → EReal)
    (W₃ : (⟨2, ![512, 1]⟩ : Shape).Idx → EReal) (b₃ : (⟨1, ![1]⟩ : Shape).Idx → EReal) :
    (⟨2, ![32768, 1]⟩ : Shape).Idx → EReal :=
  fun i => head (fun k => states (ix2 (i 0) k))
    (fun k c => W₁ (ix2 k c)) (fun c => b₁ (ix1 c)) (fun k c => W₂ (ix2 k c)) (fun c => b₂ (ix1 c))
    (fun k => W₃ (ix2 k (0 : Fin 1))) (b₃ (ix1 (0 : Fin 1)))

end Cert.Perceptron

end
-- ==== Proof.Layout.lean ====
/-
  The layout steps around the products, read by coordinates.

  Two arrays of `R` rows and 512 columns laid side by side have, in row `r`, the first array's row `r` followed by the
  second's; a row vector broadcast down `R` rows has, at `(r, c)`, its entry `c`; and the word of all zero bits is the
  number zero.
-/
import proofs.«127567_j74783970557989_1_alg».proof.Proof.Perceptron
import Idealize.ShloMosaic.Lib.Pipeline.Value
import Idealize.ShloMosaic.PureOps.Ideal.Laws

noncomputable section

namespace Cert.Layout

open Idealize.ShloMosaic Idealize.ShloMosaic.ValueIdx Cert.Perceptron

/-- Row `r` of two `R × 512` arrays laid side by side is row `r` of the first followed by row `r` of the second. -/
theorem side_by_side {R : Nat} (x₀ x₁ : (⟨2, ![R, 512]⟩ : Shape).Idx → EReal)
    (h : Shape.Concatenates [(⟨2, ![R, 512]⟩ : Shape), ⟨2, ![R, 512]⟩] ⟨2, ![R, 1024]⟩ 1) (r : Fin R) (k : Fin 1024) :
    concatenate (⟨2, ![R, 1024]⟩ : Shape) 1 [⟨⟨2, ![R, 512]⟩, x₀⟩, ⟨⟨2, ![R, 512]⟩, x₁⟩] h (ix2 r k)
      = joined (fun c => x₀ (ix2 r c)) (fun c => x₁ (ix2 r c)) k := by
  unfold joined
  by_cases hk : k.val < 512
  · rw [dif_pos hk]
    exact concatenate_pair_apply_left 1 x₀ x₁ h (ix2 r k) rfl (ix2 r ⟨k.val, hk⟩)
      (fun b => by match b with | ⟨0, _⟩ => rfl | ⟨1, _⟩ => rfl)
  · rw [dif_neg hk]
    exact concatenate_pair_apply_right 1 x₀ x₁ h (ix2 r k) rfl rfl (ix2 r ⟨k.val - 512, by omega⟩)
      (fun b hb => by match b with | ⟨0, _⟩ => rfl | ⟨1, _⟩ => exact absurd rfl hb)
      (by show (k.val - 512) + 512 = k.val; omega)

/-- A `1 × N` row broadcast down `R` rows has its entry `c` at `(r, c)`. -/
theorem down_rows {R N : Nat} (b : (⟨2, ![1, N]⟩ : Shape).Idx → EReal)
    (h : (⟨2, ![1, N]⟩ : Shape).Broadcasts ⟨2, ![R, N]⟩) (r : Fin R) (c : Fin N) :
    broadcastTo (⟨2, ![R, N]⟩ : Shape) b h (ix2 r c) = b (ix2 (0 : Fin 1) c) := by
  refine broadcastTo_apply b h (ix2 r c) (ix2 (0 : Fin 1) c) fun a => ?_
  match a with
  | ⟨0, _⟩ => simp
  | ⟨1, _⟩ =>
    by_cases hN : N = 1
    · subst hN; have := c.isLt; simp <;> omega
    · simp [hN]

/-- The word of all zero bits is zero. -/
theorem zero_word : Scalar.ofBits (F := Ideal) .f32 0x00000000#32 = (0 : EReal) := Ideal.ofBits_zero_f32

end Cert.Layout

end
-- ==== Proof.KernelRows.lean ====
/-
  What the kernel's body computes for one row of a block, at the ideal values.

  The body loads a block of 1024 state rows and 1024 action rows and all the weights, and stores two columns of 1024
  numbers. Changes of float format are the identity on the extended reals, each product into a zero accumulator is the
  plain sum of products over the contracted coordinate, and a bias row broadcast down the rows adds its entry `c` at
  column `c`. So entry `p` of the first stored column is the three-layer perceptron of block row `p` of the states joined
  with block row `p` of the actions, and entry `p` of the second is the perceptron of block row `p` of the states.
-/
import proofs.«127567_j74783970557989_1_alg».proof.Proof.Gen.KernelIdeal.Skeleton
import proofs.«127567_j74783970557989_1_alg».proof.Proof.Product
import proofs.«127567_j74783970557989_1_alg».proof.Proof.Layout

noncomputable section

open scoped BigOperators

namespace Cert.KernelIdeal.Rows

open Idealize.ShloMosaic Idealize.ShloMosaic.ValueIdx Cert.KernelIdeal Cert.KernelIdeal.Gen Cert.Perceptron Cert.Layout

/-! ## The three products, by coordinates -/

/-- The product over the joined row's 1024 positions. -/
theorem product_wide (lhs : FVec Ideal S1024x1024 .bf16) (rhs : FVec Ideal S1024x512 .bf16) (p : Fin 1024) (c : Fin 512) :
    matmul dot_S1024x1024_S1024x512_S1024x512_1_0_0_1_n_n none lhs rhs (constant (F := Ideal) S1024x512 .f32 0x00000000#32) (ix2 p c)
      = ∑ k : Fin 1024, lhs (ix2 p k) * rhs (ix2 k c) :=
  (Ideal.matmul_constant_zero_apply _ none lhs rhs (ix2 p c)).trans
    (Cert.Product.sum_at (R := 1024) (K := 1024) (N := 512) dot_S1024x1024_S1024x512_S1024x512_1_0_0_1_n_n
      rfl rfl rfl rfl rfl rfl lhs rhs p c)

/-- The product over a hidden layer's 512 units, into 512 units. -/
theorem product_square (lhs : FVec Ideal S1024x512 .bf16) (rhs : FVec Ideal S512x512 .bf16) (p : Fin 1024) (c : Fin 512) :
    matmul dot_S1024x512_S512x512_S1024x512_1_0_0_1_n_n none lhs rhs (constant (F := Ideal) S1024x512 .f32 0x00000000#32) (ix2 p c)
      = ∑ k : Fin 512, lhs (ix2 p k) * rhs (ix2 k c) :=
  (Ideal.matmul_constant_zero_apply _ none lhs rhs (ix2 p c)).trans
    (Cert.Product.sum_at (R := 1024) (K := 512) (N := 512) dot_S1024x512_S512x512_S1024x512_1_0_0_1_n_n
      rfl rfl rfl rfl rfl rfl lhs rhs p c)

/-- The product over a hidden layer's 512 units, into the one output unit. -/
theorem product_column (lhs : FVec Ideal S1024x512 .bf16) (rhs : FVec Ideal S512x1 .bf16) (p : Fin 1024) (c : Fin 1) :
    matmul dot_S1024x512_S512x1_S1024x1_1_0_0_1_n_n none lhs rhs (constant (F := Ideal) S1024x1 .f32 0x00000000#32) (ix2 p c)
      = ∑ k : Fin 512, lhs (ix2 p k) * rhs (ix2 k c) :=
  (Ideal.matmul_constant_zero_apply _ none lhs rhs (ix2 p c)).trans
    (Cert.Product.sum_at (R := 1024) (K := 512) (N := 1) dot_S1024x512_S512x1_S1024x1_1_0_0_1_n_n
      rfl rfl rfl rfl rfl rfl lhs rhs p c)

/-! ## The layers at a row -/

/-- A rectified layer of the body at row `p`, unit `c`, over whatever the previous layer holds in row `p`. -/
theorem hidden_at (H : FVec Ideal S1024x512 .f32) (w : FVec Ideal S512x512 .bf16) (b : FVec Ideal S1x512 .f32)
    (hlt : FTy.bits .bf16 < FTy.bits .f32) (hb : S1x512.Broadcasts S1024x512) (p : Fin 1024) (c : Fin 512)
    (g : Fin 512 → EReal) (hg : ∀ k, H (ix2 p k) = g k) :
    maximumf (addf (matmul dot_S1024x512_S512x512_S1024x512_1_0_0_1_n_n none (truncf .bf16 H hlt) w
        (constant (F := Ideal) S1024x512 .f32 0x00000000#32)) (broadcastTo S1024x512 b hb))
      (broadcast S1024x512 (Scalar.ofBits (F := Ideal) .f32 0x00000000#32)) (ix2 p c)
      = rectified g (fun k c => w (ix2 k c)) (fun c => b (ix2 (0 : Fin 1) c)) c := by
  rw [maximumf_apply, addf_apply, broadcast_apply, zero_word, product_square, down_rows]
  unfold rectified
  simp only [truncf_apply, hg]

/-- The output unit of the body at row `p`, over whatever the second layer holds in row `p`. -/
theorem output_at (H : FVec Ideal S1024x512 .f32) (w : FVec Ideal S512x1 .bf16) (b : FVec Ideal S1x1 .f32)
    (hlt : FTy.bits .bf16 < FTy.bits .f32) (hb : S1x1.Broadcasts S1024x1) (p : Fin 1024)
    (g : Fin 512 → EReal) (hg : ∀ k, H (ix2 p k) = g k) :
    addf (matmul dot_S1024x512_S512x1_S1024x1_1_0_0_1_n_n none (truncf .bf16 H hlt) w
        (constant (F := Ideal) S1024x1 .f32 0x00000000#32)) (broadcastTo S1024x1 b hb) (ix2 p (0 : Fin 1))
      = (∑ k : Fin 512, g k * w (ix2 k (0 : Fin 1))) + b (ix2 (0 : Fin 1) (0 : Fin 1)) := by
  rw [addf_apply, product_column, down_rows]
  simp only [truncf_apply, hg]

/-- The first layer of the action-value head at row `p`, unit `c`: over the state row joined with the action row. -/
theorem first_joined_at (x₀ x₁ w : Vec Ideal S1024x512 .f32) (b : Vec Ideal S1x512 .f32) (p : Fin 1024) (c : Fin 512) :
    maximumf (addf (k0_pay13 x₀ x₁ w) (k0_pay14 b))
      (broadcast S1024x512 (Scalar.ofBits (F := Ideal) .f32 0x00000000#32)) (ix2 p c)
      = rectified (joined (fun k => x₀ (ix2 p k)) (fun k => x₁ (ix2 p k))) (fun k c => w (ix2 k c))
          (fun c => b (ix2 (0 : Fin 1) c)) c := by
  rw [maximumf_apply, addf_apply, broadcast_apply, zero_word]
  unfold k0_pay13 k0_pay14
  rw [product_wide, down_rows, shapeCast_self]
  unfold rectified
  simp only [truncf_apply, side_by_side]

/-! ## The two stored columns -/

/-- Entry `p` of the first stored column: the perceptron of the joined row `p`. -/
theorem action_column (x₀ x₁ w₁ : Vec Ideal S1024x512 .f32) (b₁ : Vec Ideal S1x512 .f32) (w₂ : Vec Ideal S512x512 .f32)
    (b₂ : Vec Ideal S1x512 .f32) (w₃ : Vec Ideal S512x1 .f32) (b₃ : Vec Ideal S1x1 .f32) (p : Fin 1024) :
    k0_pay1 (k0_pay3 w₂) (k0_pay4 b₂) (k0_pay5 w₃) (k0_pay6 b₃) (k0_pay13 x₀ x₁ w₁) (k0_pay14 b₁) (ix2 p (0 : Fin 1))
      = head (joined (fun k => x₀ (ix2 p k)) (fun k => x₁ (ix2 p k))) (fun k c => w₁ (ix2 k c))
          (fun c => b₁ (ix2 (0 : Fin 1) c)) (fun k c => w₂ (ix2 k c)) (fun c => b₂ (ix2 (0 : Fin 1) c))
          (fun k => w₃ (ix2 k (0 : Fin 1))) (b₃ (ix2 (0 : Fin 1) (0 : Fin 1))) := by
  have e4 : k0_pay4 b₂ = b₂ := shapeCast_self b₂ _
  have e6 : k0_pay6 b₃ = b₃ := shapeCast_self b₃ _
  rw [e4, e6]
  unfold k0_pay1 head
  exact output_at _ (k0_pay5 w₃) b₃ _ _ p _ fun k₂ =>
    hidden_at _ (k0_pay3 w₂) b₂ _ _ p k₂ _ fun k₁ => first_joined_at x₀ x₁ w₁ b₁ p k₁

/-- Entry `p` of the second stored column: the perceptron of state row `p`. -/
theorem state_column (x₀ : Vec Ideal S1024x512 .f32) (w₁ : Vec Ideal S512x512 .f32) (b₁ : Vec Ideal S1x512 .f32)
    (w₂ : Vec Ideal S512x512 .f32) (b₂ : Vec Ideal S1x512 .f32) (w₃ : Vec Ideal S512x1 .f32) (b₃ : Vec Ideal S1x1 .f32)
    (p : Fin 1024) :
    k0_pay2 x₀ (k0_pay7 w₁) (k0_pay8 b₁) (k0_pay9 w₂) (k0_pay10 b₂) (k0_pay11 w₃) (k0_pay12 b₃) (ix2 p (0 : Fin 1))
      = head (fun k => x₀ (ix2 p k)) (fun k c => w₁ (ix2 k c))
          (fun c => b₁ (ix2 (0 : Fin 1) c)) (fun k c => w₂ (ix2 k c)) (fun c => b₂ (ix2 (0 : Fin 1) c))
          (fun k => w₃ (ix2 k (0 : Fin 1))) (b₃ (ix2 (0 : Fin 1) (0 : Fin 1))) := by
  have e8 : k0_pay8 b₁ = b₁ := shapeCast_self b₁ _
  have e10 : k0_pay10 b₂ = b₂ := shapeCast_self b₂ _
  have e12 : k0_pay12 b₃ = b₃ := shapeCast_self b₃ _
  rw [e8, e10, e12]
  unfold k0_pay2 head
  exact output_at _ (k0_pay11 w₃) b₃ _ _ p _ fun k₂ =>
    hidden_at _ (k0_pay9 w₂) b₂ _ _ p k₂ _ fun k₁ =>
      hidden_at x₀ (k0_pay7 w₁) b₁ _ _ p k₁ _ fun _ => rfl

end Cert.KernelIdeal.Rows

end
-- ==== Proof.KernelArray.lean ====
/-
  From the blocks to the arrays.

  The grid has 32 points; point `t` is handed rows `1024 t … 1024 t + 1023` of the states and of the actions, every weight
  matrix whole, and every bias as a row (the host has reshaped each bias vector to one row before the launch), and writes
  back rows `1024 t … 1024 t + 1023` of the two results. Since row `r` of each result depends on row `r` of the inputs only,
  what point `t` writes back is block `t` of the perceptron applied row by row to the whole arguments; the 32 blocks cover
  all 32768 rows, so after the run each result array is that function of the arguments.
-/
import proofs.«127567_j74783970557989_1_alg».proof.Proof.Gen.KernelIdeal.Value
import proofs.«127567_j74783970557989_1_alg».proof.Proof.KernelRows
import Idealize.ShloMosaic.Lib.StableHlo.Run

set_option maxRecDepth 16384

noncomputable section

namespace Cert.KernelIdeal.Whole

open Cert.KernelIdeal Cert.KernelIdeal.Gen Cert.KernelIdeal.Value Cert.KernelIdeal.Rows Cert.Perceptron
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## The index maps, decided over the 32 points -/

/-- The windows tiled by rows move one block of rows per point. -/
theorem row_windows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_14.index t (0 : Fin 2) = t.val ∧ win0_14.index t (1 : Fin 2) = 0
    ∧ win0_15.index t (0 : Fin 2) = t.val ∧ win0_15.index t (1 : Fin 2) = 0 :=
  (by decide +kernel : ∀ t : Fin grid0.N, _)

/-- The weight windows stay on their one block. -/
theorem weight_windows : ∀ t : Fin cfg0.N,
    win0_2.index t (0 : Fin 2) = 0 ∧ win0_2.index t (1 : Fin 2) = 0
    ∧ win0_4.index t (0 : Fin 2) = 0 ∧ win0_4.index t (1 : Fin 2) = 0
    ∧ win0_6.index t (0 : Fin 2) = 0 ∧ win0_6.index t (1 : Fin 2) = 0
    ∧ win0_8.index t (0 : Fin 2) = 0 ∧ win0_8.index t (1 : Fin 2) = 0
    ∧ win0_10.index t (0 : Fin 2) = 0 ∧ win0_10.index t (1 : Fin 2) = 0
    ∧ win0_12.index t (0 : Fin 2) = 0 ∧ win0_12.index t (1 : Fin 2) = 0 :=
  (by decide +kernel : ∀ t : Fin grid0.N, _)

/-- So do the bias windows. -/
theorem bias_windows : ∀ t : Fin cfg0.N,
    win0_3.index t (0 : Fin 2) = 0 ∧ win0_3.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_9.index t (0 : Fin 2) = 0 ∧ win0_9.index t (1 : Fin 2) = 0
    ∧ win0_11.index t (0 : Fin 2) = 0 ∧ win0_11.index t (1 : Fin 2) = 0
    ∧ win0_13.index t (0 : Fin 2) = 0 ∧ win0_13.index t (1 : Fin 2) = 0 :=
  (by decide +kernel : ∀ t : Fin grid0.N, _)

theorem point_lt (t : Fin cfg0.N) : t.val < 32 := by
  have h := t.isLt
  have e : cfg0.N = 32 := N_0
  omega

/-- Row `p` of point `t`'s block is row `1024 t + p` of the array. -/
def row (t : Fin cfg0.N) (p : Fin 1024) : Fin 32768 :=
  ⟨t.val * 1024 + p.val, by have := point_lt t; have := p.isLt; omega⟩

/-! ## The blocks tiled by rows, read by coordinates -/

theorem states_at (c : Dev nD) (t : Fin cfg0.N) (p : Fin 1024) (k : Fin 512) :
    iblk m c 0 t (ix2 p k) = m ((c : Thread nD τ).loc main_arg0) (ix2 (row t p) k) := by
  show V m c main_arg0 (((cfg0.win 0).blk t).view.emb (ix2 p k)) = _
  rw [V_main_arg0]
  refine congrArg _ (funext fun a => Fin.ext ?_)
  obtain ⟨e0, e1, -⟩ := row_windows t
  match a with
  | ⟨0, _⟩ => show win0_0.index t (0 : Fin 2) * 1024 + 1 * p.val = t.val * 1024 + p.val; omega
  | ⟨1, _⟩ => show win0_0.index t (1 : Fin 2) * 512 + 1 * k.val = k.val; omega

theorem actions_at (c : Dev nD) (t : Fin cfg0.N) (p : Fin 1024) (k : Fin 512) :
    iblk m c 1 t (ix2 p k) = m ((c : Thread nD τ).loc main_arg1) (ix2 (row t p) k) := by
  show V m c main_arg1 (((cfg0.win 1).blk t).view.emb (ix2 p k)) = _
  rw [V_main_arg1]
  refine congrArg _ (funext fun a => Fin.ext ?_)
  obtain ⟨-, -, e0, e1, -⟩ := row_windows t
  match a with
  | ⟨0, _⟩ => show win0_1.index t (0 : Fin 2) * 1024 + 1 * p.val = t.val * 1024 + p.val; omega
  | ⟨1, _⟩ => show win0_1.index t (1 : Fin 2) * 512 + 1 * k.val = k.val; omega

/-! ## The weight blocks: each is its whole array -/

theorem weights_q1 (c : Dev nD) (t : Fin cfg0.N) : (iblk m c 2 t : S1024x512.Idx → EReal) = m ((c : Thread nD τ).loc main_arg2) := by
  funext y
  show V m c main_arg2 (((cfg0.win 2).blk t).view.emb y) = _
  rw [V_main_arg2]
  refine congrArg _ (funext fun a => Fin.ext ?_)
  obtain ⟨e0, e1, -⟩ := weight_windows t
  match a with
  | ⟨0, _⟩ => show win0_2.index t (0 : Fin 2) * 1024 + 1 * (y 0).val = (y 0).val; omega
  | ⟨1, _⟩ => show win0_2.index t (1 : Fin 2) * 512 + 1 * (y 1).val = (y 1).val; omega

theorem weights_q2 (c : Dev nD) (t : Fin cfg0.N) : (iblk m c 4 t : S512x512.Idx → EReal) = m ((c : Thread nD τ).loc main_arg4) := by
  funext y
  show V m c main_arg4 (((cfg0.win 4).blk t).view.emb y) = _
  rw [V_main_arg4]
  refine congrArg _ (funext fun a => Fin.ext ?_)
  obtain ⟨-, -, e0, e1, -⟩ := weight_windows t
  match a with
  | ⟨0, _⟩ => show win0_4.index t (0 : Fin 2) * 512 + 1 * (y 0).val = (y 0).val; omega
  | ⟨1, _⟩ => show win0_4.index t (1 : Fin 2) * 512 + 1 * (y 1).val = (y 1).val; omega

theorem weights_q3 (c : Dev nD) (t : Fin cfg0.N) : (iblk m c 6 t : S512x1.Idx → EReal) = m ((c : Thread nD τ).loc main_arg6) := by
  funext y
  show V m c main_arg6 (((cfg0.win 6).blk t).view.emb y) = _
  rw [V_main_arg6]
  refine congrArg _ (funext fun a => Fin.ext ?_)
  obtain ⟨-, -, -, -, e0, e1, -⟩ := weight_windows t
  match a with
  | ⟨0, _⟩ => show win0_6.index t (0 : Fin 2) * 512 + 1 * (y 0).val = (y 0).val; omega
  | ⟨1, _⟩ => show win0_6.index t (1 : Fin 2) * 1 + 1 * (y 1).val = (y 1).val; omega

theorem weights_v1 (c : Dev nD) (t : Fin cfg0.N) : (iblk m c 8 t : S512x512.Idx → EReal) = m ((c : Thread nD τ).loc main_arg8) := by
  funext y
  show V m c main_arg8 (((cfg0.win 8).blk t).view.emb y) = _
  rw [V_main_arg8]
  refine congrArg _ (funext fun a => Fin.ext ?_)
  obtain ⟨-, -, -, -, -, -, e0, e1, -⟩ := weight_windows t
  match a with
  | ⟨0, _⟩ => show win0_8.index t (0 : Fin 2) * 512 + 1 * (y 0).val = (y 0).val; omega
  | ⟨1, _⟩ => show win0_8.index t (1 : Fin 2) * 512 + 1 * (y 1).val = (y 1).val; omega

theorem weights_v2 (c : Dev nD) (t : Fin cfg0.N) : (iblk m c 10 t : S512x512.Idx → EReal) = m ((c : Thread nD τ).loc main_arg10) := by
  funext y
  show V m c main_arg10 (((cfg0.win 10).blk t).view.emb y) = _
  rw [V_main_arg10]
  refine congrArg _ (funext fun a => Fin.ext ?_)
  obtain ⟨-, -, -, -, -, -, -, -, e0, e1, -⟩ := weight_windows t
  match a with
  | ⟨0, _⟩ => show win0_10.index t (0 : Fin 2) * 512 + 1 * (y 0).val = (y 0).val; omega
  | ⟨1, _⟩ => show win0_10.index t (1 : Fin 2) * 512 + 1 * (y 1).val = (y 1).val; omega

theorem weights_v3 (c : Dev nD) (t : Fin cfg0.N) : (iblk m c 12 t : S512x1.Idx → EReal) = m ((c : Thread nD τ).loc main_arg12) := by
  funext y
  show V m c main_arg12 (((cfg0.win 12).blk t).view.emb y) = _
  rw [V_main_arg12]
  refine congrArg _ (funext fun a => Fin.ext ?_)
  obtain ⟨-, -, -, -, -, -, -, -, -, -, e0, e1⟩ := weight_windows t
  match a with
  | ⟨0, _⟩ => show win0_12.index t (0 : Fin 2) * 512 + 1 * (y 0).val = (y 0).val; omega
  | ⟨1, _⟩ => show win0_12.index t (1 : Fin 2) * 1 + 1 * (y 1).val = (y 1).val; omega

theorem weights_q1_at (c : Dev nD) (t : Fin cfg0.N) (k : Fin 1024) (u : Fin 512) :
    iblk m c 2 t (ix2 k u) = m ((c : Thread nD τ).loc main_arg2) (ix2 k u) := congrFun (weights_q1 m c t) _
theorem weights_q2_at (c : Dev nD) (t : Fin cfg0.N) (k : Fin 512) (u : Fin 512) :
    iblk m c 4 t (ix2 k u) = m ((c : Thread nD τ).loc main_arg4) (ix2 k u) := congrFun (weights_q2 m c t) _
theorem weights_q3_at (c : Dev nD) (t : Fin cfg0.N) (k : Fin 512) (u : Fin 1) :
    iblk m c 6 t (ix2 k u) = m ((c : Thread nD τ).loc main_arg6) (ix2 k u) := congrFun (weights_q3 m c t) _
theorem weights_v1_at (c : Dev nD) (t : Fin cfg0.N) (k : Fin 512) (u : Fin 512) :
    iblk m c 8 t (ix2 k u) = m ((c : Thread nD τ).loc main_arg8) (ix2 k u) := congrFun (weights_v1 m c t) _
theorem weights_v2_at (c : Dev nD) (t : Fin cfg0.N) (k : Fin 512) (u : Fin 512) :
    iblk m c 10 t (ix2 k u) = m ((c : Thread nD τ).loc main_arg10) (ix2 k u) := congrFun (weights_v2 m c t) _
theorem weights_v3_at (c : Dev nD) (t : Fin cfg0.N) (k : Fin 512) (u : Fin 1) :
    iblk m c 12 t (ix2 k u) = m ((c : Thread nD τ).loc main_arg12) (ix2 k u) := congrFun (weights_v3 m c t) _

/-! ## The bias rows: what the host's reshapes leave, and the blocks over them -/

/-- A vector of 512 numbers reshaped to one row has the vector's entry `k` at `(0, k)`. -/
theorem bias_q1_array (c : Dev nD) (k : Fin 512) :
    (V m c main_v0 : S1x512.Idx → EReal) (ix2 (0 : Fin 1) k) = m ((c : Thread nD τ).loc main_arg3) (ix1 k) := by
  have e : (V m c main_v0 : S1x512.Idx → EReal)
      = shapeCast S1x512 (m ((c : Thread nD τ).loc main_arg3)) Facts₀.shapeCasts_S512_S1x512 := by
    dsimp only [V, hostOps0]; after_results; rfl
  rw [e]
  refine (shapeCast_addUnit_apply ![512] _ _ (ix2 (0 : Fin 1) k)).trans (congrArg _ (funext fun a => ?_))
  match a with
  | ⟨0, _⟩ => rfl

theorem bias_q2_array (c : Dev nD) (k : Fin 512) :
    (V m c main_v1 : S1x512.Idx → EReal) (ix2 (0 : Fin 1) k) = m ((c : Thread nD τ).loc main_arg5) (ix1 k) := by
  have e : (V m c main_v1 : S1x512.Idx → EReal)
      = shapeCast S1x512 (m ((c : Thread nD τ).loc main_arg5)) Facts₀.shapeCasts_S512_S1x512 := by
    dsimp only [V, hostOps0]; after_results; rfl
  rw [e]
  refine (shapeCast_addUnit_apply ![512] _ _ (ix2 (0 : Fin 1) k)).trans (congrArg _ (funext fun a => ?_))
  match a with
  | ⟨0, _⟩ => rfl

theorem bias_q3_array (c : Dev nD) :
    (V m c main_v2 : S1x1.Idx → EReal) (ix2 (0 : Fin 1) (0 : Fin 1)) = m ((c : Thread nD τ).loc main_arg7) (ix1 (0 : Fin 1)) := by
  have e : (V m c main_v2 : S1x1.Idx → EReal)
      = shapeCast S1x1 (m ((c : Thread nD τ).loc main_arg7)) Facts₀.shapeCasts_S1_S1x1 := by
    dsimp only [V, hostOps0]; after_results; rfl
  rw [e]
  refine (shapeCast_addUnit_apply ![1] _ _ (ix2 (0 : Fin 1) (0 : Fin 1))).trans (congrArg _ (funext fun a => ?_))
  match a with
  | ⟨0, _⟩ => rfl

theorem bias_v1_array (c : Dev nD) (k : Fin 512) :
    (V m c main_v3 : S1x512.Idx → EReal) (ix2 (0 : Fin 1) k) = m ((c : Thread nD τ).loc main_arg9) (ix1 k) := by
  have e : (V m c main_v3 : S1x512.Idx → EReal)
      = shapeCast S1x512 (m ((c : Thread nD τ).loc main_arg9)) Facts₀.shapeCasts_S512_S1x512 := by
    dsimp only [V, hostOps0]; after_results; rfl
  rw [e]
  refine (shapeCast_addUnit_apply ![512] _ _ (ix2 (0 : Fin 1) k)).trans (congrArg _ (funext fun a => ?_))
  match a with
  | ⟨0, _⟩ => rfl

theorem bias_v2_array (c : Dev nD) (k : Fin 512) :
    (V m c main_v4 : S1x512.Idx → EReal) (ix2 (0 : Fin 1) k) = m ((c : Thread nD τ).loc main_arg11) (ix1 k) := by
  have e : (V m c main_v4 : S1x512.Idx → EReal)
      = shapeCast S1x512 (m ((c : Thread nD τ).loc main_arg11)) Facts₀.shapeCasts_S512_S1x512 := by
    dsimp only [V, hostOps0]; after_results; rfl
  rw [e]
  refine (shapeCast_addUnit_apply ![512] _ _ (ix2 (0 : Fin 1) k)).trans (congrArg _ (funext fun a => ?_))
  match a with
  | ⟨0, _⟩ => rfl

theorem bias_v3_array (c : Dev nD) :
    (V m c main_v5 : S1x1.Idx → EReal) (ix2 (0 : Fin 1) (0 : Fin 1)) = m ((c : Thread nD τ).loc main_arg13) (ix1 (0 : Fin 1)) := by
  have e : (V m c main_v5 : S1x1.Idx → EReal)
      = shapeCast S1x1 (m ((c : Thread nD τ).loc main_arg13)) Facts₀.shapeCasts_S1_S1x1 := by
    dsimp only [V, hostOps0]; after_results; rfl
  rw [e]
  refine (shapeCast_addUnit_apply ![1] _ _ (ix2 (0 : Fin 1) (0 : Fin 1))).trans (congrArg _ (funext fun a => ?_))
  match a with
  | ⟨0, _⟩ => rfl

theorem bias_q1_at (c : Dev nD) (t : Fin cfg0.N) (k : Fin 512) :
    iblk m c 3 t (ix2 (0 : Fin 1) k) = m ((c : Thread nD τ).loc main_arg3) (ix1 k) := by
  show V m c main_v0 (((cfg0.win 3).blk t).view.emb (ix2 (0 : Fin 1) k)) = _
  have e : ((cfg0.win 3).blk t).view.emb (ix2 (0 : Fin 1) k) = ix2 (0 : Fin 1) k := by
    funext a; apply Fin.ext
    obtain ⟨e0, e1, -⟩ := bias_windows t
    match a with
    | ⟨0, _⟩ => show win0_3.index t (0 : Fin 2) * 1 + 1 * 0 = 0; omega
    | ⟨1, _⟩ => show win0_3.index t (1 : Fin 2) * 512 + 1 * k.val = k.val; omega
  exact (congrArg (V m c main_v0 : S1x512.Idx → EReal) e).trans (bias_q1_array m c k)

theorem bias_q2_at (c : Dev nD) (t : Fin cfg0.N) (k : Fin 512) :
    iblk m c 5 t (ix2 (0 : Fin 1) k) = m ((c : Thread nD τ).loc main_arg5) (ix1 k) := by
  show V m c main_v1 (((cfg0.win 5).blk t).view.emb (ix2 (0 : Fin 1) k)) = _
  have e : ((cfg0.win 5).blk t).view.emb (ix2 (0 : Fin 1) k) = ix2 (0 : Fin 1) k := by
    funext a; apply Fin.ext
    obtain ⟨-, -, e0, e1, -⟩ := bias_windows t
    match a with
    | ⟨0, _⟩ => show win0_5.index t (0 : Fin 2) * 1 + 1 * 0 = 0; omega
    | ⟨1, _⟩ => show win0_5.index t (1 : Fin 2) * 512 + 1 * k.val = k.val; omega
  exact (congrArg (V m c main_v1 : S1x512.Idx → EReal) e).trans (bias_q2_array m c k)

theorem bias_q3_at (c : Dev nD) (t : Fin cfg0.N) :
    iblk m c 7 t (ix2 (0 : Fin 1) (0 : Fin 1)) = m ((c : Thread nD τ).loc main_arg7) (ix1 (0 : Fin 1)) := by
  show V m c main_v2 (((cfg0.win 7).blk t).view.emb (ix2 (0 : Fin 1) (0 : Fin 1))) = _
  have e : ((cfg0.win 7).blk t).view.emb (ix2 (0 : Fin 1) (0 : Fin 1)) = ix2 (0 : Fin 1) (0 : Fin 1) := by
    funext a; apply Fin.ext
    obtain ⟨-, -, -, -, e0, e1, -⟩ := bias_windows t
    match a with
    | ⟨0, _⟩ => show win0_7.index t (0 : Fin 2) * 1 + 1 * 0 = 0; omega
    | ⟨1, _⟩ => show win0_7.index t (1 : Fin 2) * 1 + 1 * 0 = 0; omega
  exact (congrArg (V m c main_v2 : S1x1.Idx → EReal) e).trans (bias_q3_array m c)

theorem bias_v1_at (c : Dev nD) (t : Fin cfg0.N) (k : Fin 512) :
    iblk m c 9 t (ix2 (0 : Fin 1) k) = m ((c : Thread nD τ).loc main_arg9) (ix1 k) := by
  show V m c main_v3 (((cfg0.win 9).blk t).view.emb (ix2 (0 : Fin 1) k)) = _
  have e : ((cfg0.win 9).blk t).view.emb (ix2 (0 : Fin 1) k) = ix2 (0 : Fin 1) k := by
    funext a; apply Fin.ext
    obtain ⟨-, -, -, -, -, -, e0, e1, -⟩ := bias_windows t
    match a with
    | ⟨0, _⟩ => show win0_9.index t (0 : Fin 2) * 1 + 1 * 0 = 0; omega
    | ⟨1, _⟩ => show win0_9.index t (1 : Fin 2) * 512 + 1 * k.val = k.val; omega
  exact (congrArg (V m c main_v3 : S1x512.Idx → EReal) e).trans (bias_v1_array m c k)

theorem bias_v2_at (c : Dev nD) (t : Fin cfg0.N) (k : Fin 512) :
    iblk m c 11 t (ix2 (0 : Fin 1) k) = m ((c : Thread nD τ).loc main_arg11) (ix1 k) := by
  show V m c main_v4 (((cfg0.win 11).blk t).view.emb (ix2 (0 : Fin 1) k)) = _
  have e : ((cfg0.win 11).blk t).view.emb (ix2 (0 : Fin 1) k) = ix2 (0 : Fin 1) k := by
    funext a; apply Fin.ext
    obtain ⟨-, -, -, -, -, -, -, -, e0, e1, -⟩ := bias_windows t
    match a with
    | ⟨0, _⟩ => show win0_11.index t (0 : Fin 2) * 1 + 1 * 0 = 0; omega
    | ⟨1, _⟩ => show win0_11.index t (1 : Fin 2) * 512 + 1 * k.val = k.val; omega
  exact (congrArg (V m c main_v4 : S1x512.Idx → EReal) e).trans (bias_v2_array m c k)

theorem bias_v3_at (c : Dev nD) (t : Fin cfg0.N) :
    iblk m c 13 t (ix2 (0 : Fin 1) (0 : Fin 1)) = m ((c : Thread nD τ).loc main_arg13) (ix1 (0 : Fin 1)) := by
  show V m c main_v5 (((cfg0.win 13).blk t).view.emb (ix2 (0 : Fin 1) (0 : Fin 1))) = _
  have e : ((cfg0.win 13).blk t).view.emb (ix2 (0 : Fin 1) (0 : Fin 1)) = ix2 (0 : Fin 1) (0 : Fin 1) := by
    funext a; apply Fin.ext
    obtain ⟨-, -, -, -, -, -, -, -, -, -, e0, e1⟩ := bias_windows t
    match a with
    | ⟨0, _⟩ => show win0_13.index t (0 : Fin 2) * 1 + 1 * 0 = 0; omega
    | ⟨1, _⟩ => show win0_13.index t (1 : Fin 2) * 1 + 1 * 0 = 0; omega
  exact (congrArg (V m c main_v5 : S1x1.Idx → EReal) e).trans (bias_v3_array m c)

/-! ## What each point writes back -/

/-- Point `t` writes back block `t` of the action values of the whole arguments. -/
theorem action_block (c : Dev nD) (t : Fin cfg0.N) :
    (dats m 0 c).flushed 14 t = ((cfg0.win 14).blk t).view.read (Elt Ideal)
      (actionValue (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))) := by
  rw [flushed14]
  unfold out0_14
  rw [View.canon_unit_zero origin]
  simp only [View.ld_unit_zero (S := S1024x512) origin, View.ld_unit_zero (S := S1x512) origin,
    View.ld_unit_zero (S := S512x512) origin, View.ld_unit_zero (S := S512x1) origin, View.ld_unit_zero (S := S1x1) origin]
  funext j
  obtain ⟨p, q, rfl⟩ : ∃ (p : Fin 1024) (q : Fin 1), j = ix2 p q := ⟨j 0, j 1, eq_ix2 j⟩
  obtain rfl : q = 0 := Subsingleton.elim _ _
  show k0_pay1 (k0_pay3 (iblk m c 4 t)) (k0_pay4 (iblk m c 5 t)) (k0_pay5 (iblk m c 6 t)) (k0_pay6 (iblk m c 7 t))
      (k0_pay13 (iblk m c 0 t) (iblk m c 1 t) (iblk m c 2 t)) (k0_pay14 (iblk m c 3 t)) (ix2 p (0 : Fin 1))
    = actionValue (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (((cfg0.win 14).blk t).view.emb (ix2 p (0 : Fin 1)))
  have hrow : ((cfg0.win 14).blk t).view.emb (ix2 p (0 : Fin 1)) = ix2 (row t p) (0 : Fin 1) := by
    funext a; apply Fin.ext
    obtain ⟨-, -, -, -, e0, e1, -⟩ := row_windows t
    match a with
    | ⟨0, _⟩ => show win0_14.index t (0 : Fin 2) * 1024 + 1 * p.val = t.val * 1024 + p.val; omega
    | ⟨1, _⟩ => show win0_14.index t (1 : Fin 2) * 1 + 1 * 0 = 0; omega
  rw [hrow]
  refine (action_column (iblk m c 0 t) (iblk m c 1 t) (iblk m c 2 t) (iblk m c 3 t) (iblk m c 4 t) (iblk m c 5 t)
    (iblk m c 6 t) (iblk m c 7 t) p).trans ?_
  unfold actionValue
  simp only [states_at, actions_at, weights_q1_at, weights_q2_at, weights_q3_at, bias_q1_at, bias_q2_at, bias_q3_at]

/-- Point `t` writes back block `t` of the state values of the whole arguments. -/
theorem state_block (c : Dev nD) (t : Fin cfg0.N) :
    (dats m 0 c).flushed 15 t = ((cfg0.win 15).blk t).view.read (Elt Ideal)
      (stateValue (m ((c : Thread nD τ).loc main_arg0))
        (m ((c : Thread nD τ).loc main_arg8)) (m ((c : Thread nD τ).loc main_arg9))
        (m ((c : Thread nD τ).loc main_arg10)) (m ((c : Thread nD τ).loc main_arg11))
        (m ((c : Thread nD τ).loc main_arg12)) (m ((c : Thread nD τ).loc main_arg13))) := by
  rw [flushed15]
  unfold out0_15
  rw [View.canon_unit_zero origin]
  simp only [View.ld_unit_zero (S := S1024x512) origin, View.ld_unit_zero (S := S1x512) origin,
    View.ld_unit_zero (S := S512x512) origin, View.ld_unit_zero (S := S512x1) origin, View.ld_unit_zero (S := S1x1) origin]
  funext j
  obtain ⟨p, q, rfl⟩ : ∃ (p : Fin 1024) (q : Fin 1), j = ix2 p q := ⟨j 0, j 1, eq_ix2 j⟩
  obtain rfl : q = 0 := Subsingleton.elim _ _
  show k0_pay2 (iblk m c 0 t) (k0_pay7 (iblk m c 8 t)) (k0_pay8 (iblk m c 9 t)) (k0_pay9 (iblk m c 10 t))
      (k0_pay10 (iblk m c 11 t)) (k0_pay11 (iblk m c 12 t)) (k0_pay12 (iblk m c 13 t)) (ix2 p (0 : Fin 1))
    = stateValue (m ((c : Thread nD τ).loc main_arg0))
        (m ((c : Thread nD τ).loc main_arg8)) (m ((c : Thread nD τ).loc main_arg9))
        (m ((c : Thread nD τ).loc main_arg10)) (m ((c : Thread nD τ).loc main_arg11))
        (m ((c : Thread nD τ).loc main_arg12)) (m ((c : Thread nD τ).loc main_arg13))
        (((cfg0.win 15).blk t).view.emb (ix2 p (0 : Fin 1)))
  have hrow : ((cfg0.win 15).blk t).view.emb (ix2 p (0 : Fin 1)) = ix2 (row t p) (0 : Fin 1) := by
    funext a; apply Fin.ext
    obtain ⟨-, -, -, -, -, -, e0, e1⟩ := row_windows t
    match a with
    | ⟨0, _⟩ => show win0_15.index t (0 : Fin 2) * 1024 + 1 * p.val = t.val * 1024 + p.val; omega
    | ⟨1, _⟩ => show win0_15.index t (1 : Fin 2) * 1 + 1 * 0 = 0; omega
  rw [hrow]
  refine (state_column (iblk m c 0 t) (iblk m c 8 t) (iblk m c 9 t) (iblk m c 10 t) (iblk m c 11 t) (iblk m c 12 t)
    (iblk m c 13 t) p).trans ?_
  unfold stateValue
  simp only [states_at, weights_v1_at, weights_v2_at, weights_v3_at, bias_v1_at, bias_v2_at, bias_v3_at]

/-! ## The blocks cover the results -/

/-- A row index is in point `t`'s block of the first result iff it lies in rows `1024 t … 1024 t + 1023`. -/
theorem mem_action_block (t : Fin cfg0.N) (i : S32768x1.Idx) :
    i ∈ ((cfg0.win 14).blk t).view.set ↔ ∀ a : Fin 2, win0_14.index t a * S1024x1.size a ≤ (i a).val
      ∧ (i a).val < win0_14.index t a * S1024x1.size a + S1024x1.size a := by
  show i ∈ ((View.whole main_v6_0).slice (win0_14.rect t)).set ↔ _
  rw [View.set_slice_whole, Rect.mem_set_unit]
  exact Iff.rfl

theorem mem_state_block (t : Fin cfg0.N) (i : S32768x1.Idx) :
    i ∈ ((cfg0.win 15).blk t).view.set ↔ ∀ a : Fin 2, win0_15.index t a * S1024x1.size a ≤ (i a).val
      ∧ (i a).val < win0_15.index t a * S1024x1.size a + S1024x1.size a := by
  show i ∈ ((View.whole main_v6_1).slice (win0_15.rect t)).set ↔ _
  rw [View.set_slice_whole, Rect.mem_set_unit]
  exact Iff.rfl

/-- Row `r` is in the block of the point `r / 1024`. -/
theorem action_covered (i : S32768x1.Idx) :
    ∃ t : Fin cfg0.N, (cfg0.win 14).flush t = true ∧ i ∈ ((cfg0.win 14).blk t).view.set := by
  have hi0 : (i 0).val < 32768 := (i 0).isLt
  have hi1 : (i 1).val < 1 := (i 1).isLt
  have hN : cfg0.N = 32 := N_0
  have ht : (i 0).val / 1024 < cfg0.N := by omega
  refine ⟨⟨(i 0).val / 1024, ht⟩, flush0_14 _, ?_⟩
  rw [mem_action_block]
  intro a
  obtain ⟨-, -, -, -, e0, e1, -⟩ := row_windows ⟨(i 0).val / 1024, ht⟩
  match a with
  | ⟨0, _⟩ =>
    show win0_14.index ⟨(i 0).val / 1024, ht⟩ (0 : Fin 2) * 1024 ≤ (i 0).val
      ∧ (i 0).val < win0_14.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_14.index ⟨(i 0).val / 1024, ht⟩ (1 : Fin 2) * 1 ≤ (i 1).val
      ∧ (i 1).val < win0_14.index ⟨(i 0).val / 1024, ht⟩ (1 : Fin 2) * 1 + 1
    omega

theorem state_covered (i : S32768x1.Idx) :
    ∃ t : Fin cfg0.N, (cfg0.win 15).flush t = true ∧ i ∈ ((cfg0.win 15).blk t).view.set := by
  have hi0 : (i 0).val < 32768 := (i 0).isLt
  have hi1 : (i 1).val < 1 := (i 1).isLt
  have hN : cfg0.N = 32 := N_0
  have ht : (i 0).val / 1024 < cfg0.N := by omega
  refine ⟨⟨(i 0).val / 1024, ht⟩, flush0_15 _, ?_⟩
  rw [mem_state_block]
  intro a
  obtain ⟨-, -, -, -, -, -, e0, e1⟩ := row_windows ⟨(i 0).val / 1024, ht⟩
  match a with
  | ⟨0, _⟩ =>
    show win0_15.index ⟨(i 0).val / 1024, ht⟩ (0 : Fin 2) * 1024 ≤ (i 0).val
      ∧ (i 0).val < win0_15.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_15.index ⟨(i 0).val / 1024, ht⟩ (1 : Fin 2) * 1 ≤ (i 1).val
      ∧ (i 1).val < win0_15.index ⟨(i 0).val / 1024, ht⟩ (1 : Fin 2) * 1 + 1
    omega

/-! ## The arrays after the run -/

theorem action_array (c : Dev nD) :
    (dats m 0 c).arrAt 14 cfg0.N = actionValue (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) :=
  (dats m 0 c).arrAt_eq_of_cover 14 _ (fun t _ => action_block m c t) action_covered

theorem state_array (c : Dev nD) :
    (dats m 0 c).arrAt 15 cfg0.N = stateValue (m ((c : Thread nD τ).loc main_arg0))
        (m ((c : Thread nD τ).loc main_arg8)) (m ((c : Thread nD τ).loc main_arg9))
        (m ((c : Thread nD τ).loc main_arg10)) (m ((c : Thread nD τ).loc main_arg11))
        (m ((c : Thread nD τ).loc main_arg12)) (m ((c : Thread nD τ).loc main_arg13)) :=
  (dats m 0 c).arrAt_eq_of_cover 15 _ (fun t _ => state_block m c t) state_covered

/-- The kernel's run with both results named: the action values and the state values of the arguments, which are unchanged. -/
theorem run : θ_run defs (onTc (τ := τ) (main (F := Ideal))) ⟨m, fun _ => 0, ρ⟩ fun r => ∀ c : Dev nD,
      r.2.mem ((c : Thread nD τ).loc main_v6_0) = actionValue (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
      ∧ r.2.mem ((c : Thread nD τ).loc main_v6_1) = stateValue (m ((c : Thread nD τ).loc main_arg0))
        (m ((c : Thread nD τ).loc main_arg8)) (m ((c : Thread nD τ).loc main_arg9))
        (m ((c : Thread nD τ).loc main_arg10)) (m ((c : Thread nD τ).loc main_arg11))
        (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (action_array m c), (h c).2.1.trans (state_array m c), (h c).2.2⟩)
    (run_blocks m ρ)

end Cert.KernelIdeal.Whole

end
-- ==== Proof.RefRows.lean ====
/-
  What the reference computes in one row, at the ideal values.

  The reference lays the states and the actions side by side, and takes each dense layer over all 32768 rows at once: a
  product with the weights, the bias broadcast down the rows, and a maximum with zero after the first two layers. Each
  product's entry `(r, c)` is the sum over the contracted coordinate of row `r` of the left operand times column `c` of the
  right, so entry `(r, c)` of every layer depends on row `r` of the inputs only, and row `r` of each result is the
  three-layer perceptron of row `r`: of the joined row for the action values, of the state row for the state values.
-/
import proofs.«127567_j74783970557989_1_alg».proof.Proof.Gen.ReferenceIdeal.Read
import proofs.«127567_j74783970557989_1_alg».proof.Proof.Layout

noncomputable section

open scoped BigOperators

namespace Cert.ReferenceIdeal.Rows

open Idealize.ShloMosaic Idealize.ShloMosaic.ValueIdx Cert.ReferenceIdeal Cert.ReferenceIdeal.Read Cert.Perceptron Cert.Layout

/-! ## The operands' indices at a product's entry, and a bias's index under its two broadcasts, as coordinates -/

theorem left_wide (r : Fin 32768) (c : Fin 512) (k : Fin 1024) : lidx_main_v1 (ix2 r c) k = ix2 r k :=
  funext fun a => by match a with | ⟨0, _⟩ => rfl | ⟨1, _⟩ => rfl
theorem right_wide (r : Fin 32768) (c : Fin 512) (k : Fin 1024) : ridx_main_v1 (ix2 r c) k = ix2 k c :=
  funext fun a => by match a with | ⟨0, _⟩ => rfl | ⟨1, _⟩ => rfl
theorem left_second (r : Fin 32768) (c : Fin 512) (k : Fin 512) : lidx_main_v6 (ix2 r c) k = ix2 r k :=
  funext fun a => by match a with | ⟨0, _⟩ => rfl | ⟨1, _⟩ => rfl
theorem right_second (r : Fin 32768) (c : Fin 512) (k : Fin 512) : ridx_main_v6 (ix2 r c) k = ix2 k c :=
  funext fun a => by match a with | ⟨0, _⟩ => rfl | ⟨1, _⟩ => rfl
theorem left_out (r : Fin 32768) (c : Fin 1) (k : Fin 512) : lidx_main_v11 (ix2 r c) k = ix2 r k :=
  funext fun a => by match a with | ⟨0, _⟩ => rfl | ⟨1, _⟩ => rfl
theorem right_out (r : Fin 32768) (c : Fin 1) (k : Fin 512) : ridx_main_v11 (ix2 r c) k = ix2 k c :=
  funext fun a => by match a with | ⟨0, _⟩ => rfl | ⟨1, _⟩ => rfl
theorem left_first' (r : Fin 32768) (c : Fin 512) (k : Fin 512) : lidx_main_v15 (ix2 r c) k = ix2 r k :=
  funext fun a => by match a with | ⟨0, _⟩ => rfl | ⟨1, _⟩ => rfl
theorem right_first' (r : Fin 32768) (c : Fin 512) (k : Fin 512) : ridx_main_v15 (ix2 r c) k = ix2 k c :=
  funext fun a => by match a with | ⟨0, _⟩ => rfl | ⟨1, _⟩ => rfl
theorem left_second' (r : Fin 32768) (c : Fin 512) (k : Fin 512) : lidx_main_v20 (ix2 r c) k = ix2 r k :=
  funext fun a => by match a with | ⟨0, _⟩ => rfl | ⟨1, _⟩ => rfl
theorem right_second' (r : Fin 32768) (c : Fin 512) (k : Fin 512) : ridx_main_v20 (ix2 r c) k = ix2 k c :=
  funext fun a => by match a with | ⟨0, _⟩ => rfl | ⟨1, _⟩ => rfl
theorem left_out' (r : Fin 32768) (c : Fin 1) (k : Fin 512) : lidx_main_v25 (ix2 r c) k = ix2 r k :=
  funext fun a => by match a with | ⟨0, _⟩ => rfl | ⟨1, _⟩ => rfl
theorem right_out' (r : Fin 32768) (c : Fin 1) (k : Fin 512) : ridx_main_v25 (ix2 r c) k = ix2 k c :=
  funext fun a => by match a with | ⟨0, _⟩ => rfl | ⟨1, _⟩ => rfl

theorem bias_first (r : Fin 32768) (c : Fin 512) : idx_main_v2 (idx_main_v3 (ix2 r c)) = ix1 c :=
  funext fun a => by match a with | ⟨0, _⟩ => rfl
theorem bias_second (r : Fin 32768) (c : Fin 512) : idx_main_v7 (idx_main_v8 (ix2 r c)) = ix1 c :=
  funext fun a => by match a with | ⟨0, _⟩ => rfl
theorem bias_out (r : Fin 32768) (c : Fin 1) : idx_main_v12 (idx_main_v13 (ix2 r c)) = ix1 (0 : Fin 1) :=
  funext fun a => by match a with | ⟨0, _⟩ => rfl
theorem bias_first' (r : Fin 32768) (c : Fin 512) : idx_main_v16 (idx_main_v17 (ix2 r c)) = ix1 c :=
  funext fun a => by match a with | ⟨0, _⟩ => rfl
theorem bias_second' (r : Fin 32768) (c : Fin 512) : idx_main_v21 (idx_main_v22 (ix2 r c)) = ix1 c :=
  funext fun a => by match a with | ⟨0, _⟩ => rfl
theorem bias_out' (r : Fin 32768) (c : Fin 1) : idx_main_v26 (idx_main_v27 (ix2 r c)) = ix1 (0 : Fin 1) :=
  funext fun a => by match a with | ⟨0, _⟩ => rfl

/-- The zero the rectifier compares with. -/
theorem zero_const : FloatOps.ofBits (F := Ideal) .f32 0x00000000#32 = (0 : EReal) :=
  (Ideal.ofBits_def _).trans Ideal.ofBits_zero_f32

/-! ## The action-value head, layer by layer -/

theorem first_joined_at (x0 x1 : (⟨S32768x512, .f32⟩ : BufTy).Contents (Elt Ideal)) (x2 : (⟨S1024x512, .f32⟩ : BufTy).Contents (Elt Ideal)) (x3 : (⟨S512, .f32⟩ : BufTy).Contents (Elt Ideal)) (r : Fin 32768) (c : Fin 512) :
    val_main_v5 (F := Ideal) x0 x1 x2 x3 (ix2 r c)
      = rectified (joined (fun k => x0 (ix2 r k)) (fun k => x1 (ix2 r k))) (fun k c => x2 (ix2 k c)) (fun c => x3 (ix1 c)) c := by
  rw [val_main_v5_apply, val_main_v4_apply, val_main_v1_apply, val_main_v3_apply, val_main_v2_apply,
    val_main_call0_v0_apply, val_main_call0_cst_apply, bias_first, zero_const]
  unfold rectified val_main_v0
  simp only [left_wide, right_wide, side_by_side, Ideal.maximumf_def, Ideal.addf_def]

theorem second_at (x0 x1 : (⟨S32768x512, .f32⟩ : BufTy).Contents (Elt Ideal)) (x2 : (⟨S1024x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal))
    (r : Fin 32768) (c : Fin 512) :
    val_main_v10 (F := Ideal) x0 x1 x2 x3 x4 x5 (ix2 r c)
      = rectified (fun k => val_main_v5 (F := Ideal) x0 x1 x2 x3 (ix2 r k)) (fun k c => x4 (ix2 k c)) (fun c => x5 (ix1 c)) c := by
  rw [val_main_v10_apply, val_main_v9_apply, val_main_v6_apply, val_main_v8_apply, val_main_v7_apply,
    val_main_call1_v0_apply, val_main_call1_cst_apply, bias_second, zero_const]
  unfold rectified
  simp only [left_second, right_second, Ideal.maximumf_def, Ideal.addf_def]

theorem out_at (x0 x1 : (⟨S32768x512, .f32⟩ : BufTy).Contents (Elt Ideal)) (x2 : (⟨S1024x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal))
    (x6 : (⟨S512x1, .f32⟩ : BufTy).Contents (Elt Ideal)) (x7 : (⟨S1, .f32⟩ : BufTy).Contents (Elt Ideal)) (r : Fin 32768) (c : Fin 1) :
    val_main_v14 (F := Ideal) x0 x1 x2 x3 x4 x5 x6 x7 (ix2 r c)
      = (∑ k : Fin 512, val_main_v10 (F := Ideal) x0 x1 x2 x3 x4 x5 (ix2 r k) * x6 (ix2 k c)) + x7 (ix1 (0 : Fin 1)) := by
  rw [val_main_v14_apply, val_main_v11_apply, val_main_v13_apply, val_main_v12_apply, bias_out]
  simp only [left_out, right_out, Ideal.addf_def]

/-- The reference's first result is the action values. -/
theorem action_eq (x0 x1 : (⟨S32768x512, .f32⟩ : BufTy).Contents (Elt Ideal)) (x2 : (⟨S1024x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal))
    (x6 : (⟨S512x1, .f32⟩ : BufTy).Contents (Elt Ideal)) (x7 : (⟨S1, .f32⟩ : BufTy).Contents (Elt Ideal)) :
    val_main_v14 (F := Ideal) x0 x1 x2 x3 x4 x5 x6 x7 = actionValue x0 x1 x2 x3 x4 x5 x6 x7 := by
  funext i
  obtain ⟨r, q, rfl⟩ : ∃ (r : Fin 32768) (q : Fin 1), i = ix2 r q := ⟨i 0, i 1, eq_ix2 i⟩
  obtain rfl : q = 0 := Subsingleton.elim _ _
  rw [out_at]
  unfold actionValue head
  simp only [second_at, first_joined_at]

/-! ## The state-value head, layer by layer -/

theorem first_at' (x0 : (⟨S32768x512, .f32⟩ : BufTy).Contents (Elt Ideal)) (x8 : (⟨S512x512, .f32⟩ : BufTy).Contents (Elt Ideal)) (x9 : (⟨S512, .f32⟩ : BufTy).Contents (Elt Ideal)) (r : Fin 32768) (c : Fin 512) :
    val_main_v19 (F := Ideal) x0 x8 x9 (ix2 r c)
      = rectified (fun k => x0 (ix2 r k)) (fun k c => x8 (ix2 k c)) (fun c => x9 (ix1 c)) c := by
  rw [val_main_v19_apply, val_main_v18_apply, val_main_v15_apply, val_main_v17_apply, val_main_v16_apply,
    val_main_call2_v0_apply, val_main_call2_cst_apply, bias_first', zero_const]
  unfold rectified
  simp only [left_first', right_first', Ideal.maximumf_def, Ideal.addf_def]

theorem second_at' (x0 : (⟨S32768x512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal))
    (r : Fin 32768) (c : Fin 512) :
    val_main_v24 (F := Ideal) x0 x8 x9 x10 x11 (ix2 r c)
      = rectified (fun k => val_main_v19 (F := Ideal) x0 x8 x9 (ix2 r k)) (fun k c => x10 (ix2 k c)) (fun c => x11 (ix1 c)) c := by
  rw [val_main_v24_apply, val_main_v23_apply, val_main_v20_apply, val_main_v22_apply, val_main_v21_apply,
    val_main_call3_v0_apply, val_main_call3_cst_apply, bias_second', zero_const]
  unfold rectified
  simp only [left_second', right_second', Ideal.maximumf_def, Ideal.addf_def]

theorem out_at' (x0 : (⟨S32768x512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal))
    (x12 : (⟨S512x1, .f32⟩ : BufTy).Contents (Elt Ideal)) (x13 : (⟨S1, .f32⟩ : BufTy).Contents (Elt Ideal)) (r : Fin 32768) (c : Fin 1) :
    val_main_v28 (F := Ideal) x0 x8 x9 x10 x11 x12 x13 (ix2 r c)
      = (∑ k : Fin 512, val_main_v24 (F := Ideal) x0 x8 x9 x10 x11 (ix2 r k) * x12 (ix2 k c)) + x13 (ix1 (0 : Fin 1)) := by
  rw [val_main_v28_apply, val_main_v25_apply, val_main_v27_apply, val_main_v26_apply, bias_out']
  simp only [left_out', right_out', Ideal.addf_def]

/-- The reference's second result is the state values. -/
theorem state_eq (x0 : (⟨S32768x512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal))
    (x12 : (⟨S512x1, .f32⟩ : BufTy).Contents (Elt Ideal)) (x13 : (⟨S1, .f32⟩ : BufTy).Contents (Elt Ideal)) :
    val_main_v28 (F := Ideal) x0 x8 x9 x10 x11 x12 x13 = stateValue x0 x8 x9 x10 x11 x12 x13 := by
  funext i
  obtain ⟨r, q, rfl⟩ : ∃ (r : Fin 32768) (q : Fin 1), i = ix2 r q := ⟨i 0, i 1, eq_ix2 i⟩
  obtain rfl : q = 0 := Subsingleton.elim _ _
  rw [out_at']
  unfold stateValue head
  simp only [second_at', first_at']

end Cert.ReferenceIdeal.Rows

end
-- ==== Proof.lean ====
/-
  The kernel computes, for 32768 rows, two three-layer perceptrons: the action values of each state row joined with its
  action row, and the state values of each state row. It works through the rows 1024 at a time, with every weight matrix
  and bias resident; the reference takes all rows at once. Over the extended reals, with changes of float format the
  identity and every product the plain sum of products over the contracted coordinate, row `r` of each result is the same
  function of row `r` of the inputs in both programs (Perceptron.lean states it; KernelRows.lean and RefRows.lean read
  each program's operations into it), and the kernel's 32 blocks of rows cover the results (KernelArray.lean). No law of
  arithmetic beyond reading both sides as the same sums is used, so the inputs' finiteness is never opened.

  The three programs run and leave their arguments as they were: the two kernels' by their frame runs, the reference's
  by its run with the results dropped. The idealized kernel is the kernel's own text read over the extended reals: no
  operation was rewritten, and there is nothing to restate.
-/
import proofs.«127567_j74783970557989_1_alg».proof.Defs
import proofs.«127567_j74783970557989_1_alg».proof.Proof.Gen.Kernel
import proofs.«127567_j74783970557989_1_alg».proof.Proof.Gen.Kernel.Skeleton
import proofs.«127567_j74783970557989_1_alg».proof.Proof.Gen.Kernel.Launch
import proofs.«127567_j74783970557989_1_alg».proof.Proof.Gen.Kernel.Points
import proofs.«127567_j74783970557989_1_alg».proof.Proof.Gen.Kernel.Frame
import proofs.«127567_j74783970557989_1_alg».proof.Proof.Gen.KernelIdeal
import proofs.«127567_j74783970557989_1_alg».proof.Proof.Gen.KernelIdeal.Skeleton
import proofs.«127567_j74783970557989_1_alg».proof.Proof.Gen.KernelIdeal.Launch
import proofs.«127567_j74783970557989_1_alg».proof.Proof.Gen.KernelIdeal.Points
import proofs.«127567_j74783970557989_1_alg».proof.Proof.Gen.KernelIdeal.Frame
import proofs.«127567_j74783970557989_1_alg».proof.Proof.Gen.ReferenceIdeal
import proofs.«127567_j74783970557989_1_alg».proof.Proof.Gen.Pre_finite_inputs
import proofs.«127567_j74783970557989_1_alg».proof.Proof.Gen.KernelIdeal.Value
import proofs.«127567_j74783970557989_1_alg».proof.Proof.Gen.ReferenceIdeal.Run
import proofs.«127567_j74783970557989_1_alg».proof.Proof.Gen.ReferenceIdeal.Read
import proofs.«127567_j74783970557989_1_alg».proof.Proof.KernelArray
import proofs.«127567_j74783970557989_1_alg».proof.Proof.RefRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the arguments, the kernel's two result arrays and the reference's two results are the
    action values and the state values of those arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, -⟩ := hagree c
    rw [Cert.ReferenceIdeal.Read.val_main_v14_eq, Cert.ReferenceIdeal.Rows.action_eq, h0, h1, h2, h3, h4, h5, h6, h7]
  · obtain ⟨h0, -, -, -, -, -, -, -, h8, h9, h10, h11, h12, h13⟩ := hagree c
    rw [Cert.ReferenceIdeal.Read.val_main_v28_eq, Cert.ReferenceIdeal.Rows.state_eq, h0, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
